-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x16384x2 : Shape := ⟨3, ![8, 16384, 2]⟩
abbrev S256x384 : Shape := ⟨2, ![256, 384]⟩
abbrev S384 : Shape := ⟨1, ![384]⟩
abbrev S384x128 : Shape := ⟨2, ![384, 128]⟩
abbrev S128 : Shape := ⟨1, ![128]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S256x384 : S_.BroadcastsInDim S256x384 (![] : Fin 0 → Fin S256x384.rank)
  reducesTo_S256x384_S_d0_1 : S256x384.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S8x16384x2 : S_.BroadcastsInDim S8x16384x2 (![] : Fin 0 → Fin S8x16384x2.rank)
  reducesTo_S8x16384x2_S_d0_1_2 : S8x16384x2.ReducesTo [0, 1, 2] S_

variable [Facts]

def fn_part1 {F : FTy → Type} [FloatOps F] (main_arg1 : IVec S8x16384x2 32) (main_arg5 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S8x16384x2 32 := broadcastInDim S8x16384x2 ![] bcast_S_S8x16384x2 main_c_8
  let main_v25 : IVec S8x16384x2 1 := cmpi .sge main_arg1 main_v24
  let main_c_9 : IVec S_ 32 := constantI S_ 32 1024#32
  let main_v26 : IVec S8x16384x2 32 := broadcastInDim S8x16384x2 ![] bcast_S_S8x16384x2 main_c_9
  let main_v27 : IVec S8x16384x2 1 := cmpi .slt main_arg1 main_v26
  let main_v28 : IVec S8x16384x2 1 := andi main_v25 main_v27
  let main_c_10 : IVec S_ 1 := constantI S_ 1 1#1
  let main_v29 : IVec S_ 1 := (fun x v => Host.reduce IntOp.andi x v reducesTo_S8x16384x2_S_d0_1_2 h_S_) main_v28 main_c_10
  let main_v30 : IVec S_ 1 := andi main_v23 main_v29
  main_v30

def fn {F : FTy → Type} [FloatOps F] (main_arg0 : FVec F S8x1024x128 .f32) (main_arg1 : IVec S8x16384x2 32) (main_arg2 : FVec F S256x384 .f32) (main_arg3 : FVec F S384 .f32) (main_arg4 : FVec F S384x128 .f32) (main_arg5 : FVec F S128 .f32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S256x384 .f32 := Host.absf main_arg2
  let main_cst_0 : FVec F S_ .f32 := constant S_ .f32 0x7F800000#32
  let main_v5 : FVec F S256x384 .f32 := broadcastInDim S256x384 ![] bcast_S_S256x384 main_cst_0
  let main_v6 : IVec S256x384 1 := cmpf .olt main_v4 main_v5
  let main_c_1 : IVec S_ 1 := constantI S_ 1 1#1
  let main_v7 : IVec S_ 1 := (fun x v => Host.reduce IntOp.andi x v reducesTo_S256x384_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg1 main_arg5 main_v13 main_v16
-- ==== Kernel.lean ====
abbrev S8x1024x128 : Shape := ⟨3, ![8, 1024, 128]⟩
abbrev S8x16384x2 : Shape := ⟨3, ![8, 16384, 2]⟩
abbrev S256x384 : Shape := ⟨2, ![256, 384]⟩
abbrev S384 : Shape := ⟨1, ![384]⟩
abbrev S384x128 : Shape := ⟨2, ![384, 128]⟩
abbrev S128 : Shape := ⟨1, ![128]⟩
abbrev S128x384 : Shape := ⟨2, ![128, 384]⟩
abbrev S1x384 : Shape := ⟨2, ![1, 384]⟩
abbrev S1x128 : Shape := ⟨2, ![1, 128]⟩
abbrev S8x16384x128 : Shape := ⟨3, ![8, 16384, 128]⟩
abbrev S1x1024x128 : Shape := ⟨3, ![1, 1024, 128]⟩
abbrev S1x4096x2 : Shape := ⟨3, ![1, 4096, 2]⟩
abbrev S1x4096x128 : Shape := ⟨3, ![1, 4096, 128]⟩
abbrev S1024x128 : Shape := ⟨2, ![1024, 128]⟩
abbrev S4096x2 : Shape := ⟨2, ![4096, 2]⟩
abbrev S4096x1 : Shape := ⟨2, ![4096, 1]⟩
abbrev S4096x1024 : Shape := ⟨2, ![4096, 1024]⟩
abbrev S4096x128 : Shape := ⟨2, ![4096, 128]⟩
abbrev S4096x384 : Shape := ⟨2, ![4096, 384]⟩

abbrev nBuf : Space → Nat
  | .hbm => 12
  | .vmem => 11
  | .smem => 0
  | _ => 0

abbrev bufTy : (tb : Table) → Fin (tcTables nBuf tb) → BufTy
  | .hbm, ⟨0, _⟩ => ⟨S8x1024x128, .f32⟩
  | .hbm, ⟨1, _⟩ => ⟨S8x16384x2, .i32⟩
  | .hbm, ⟨2, _⟩ => ⟨S256x384, .f32⟩
  | .hbm, ⟨3, _⟩ => ⟨S384, .f32⟩
  | .hbm, ⟨4, _⟩ => ⟨S384x128, .f32⟩
  | .hbm, ⟨5, _⟩ => ⟨S128, .f32⟩
  | .hbm, ⟨6, _⟩ => ⟨S8x1024x128, .bf16⟩
  | .hbm, ⟨7, _⟩ => ⟨S128x384, .f32⟩
  | .hbm, ⟨8, _⟩ => ⟨S128x384, .f32⟩
  | .hbm, ⟨9, _⟩ => ⟨S1x384, .f32⟩
  | .hbm, ⟨10, _⟩ => ⟨S1x128, .f32⟩
  | .hbm, ⟨11, _⟩ => ⟨S8x16384x128, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x2, .i32⟩
  | .local _ .vmem, ⟨3, _⟩ => ⟨S1x4096x2, .i32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S384x128, .f32⟩
  | .local _ .vmem, ⟨8, _⟩ => ⟨S1x128, .f32⟩
  | .local _ .vmem, ⟨9, _⟩ => ⟨S1x4096x128, .f32⟩
  | .local _ .vmem, ⟨10, _⟩ => ⟨S1x4096x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  slices_S256x384_S128x384_0_0 : S256x384.Slices ![0, 0] S128x384
  slices_S256x384_S128x384_128_0 : S256x384.Slices ![128, 0] S128x384
  shapeCasts_S384_S1x384 : S384.ShapeCasts S1x384
  shapeCasts_S128_S1x128 : S128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  slices_S4096x2_o0_0_S4096x1 : S4096x2.Slices ![0, 0] S4096x1
  slices_S4096x2_o0_1_S4096x1 : S4096x2.Slices ![0, 1] S4096x1
  iota_S4096x1024_d1_w32 : S4096x1024.Iotas .tc 32 [1]
  broadcasts_S4096x1_S4096x1024 : S4096x1.Broadcasts S4096x1024
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  inb_S384x128_S384x128_0_0 : ∀ a, (![0, 0] : Fin 2 → Nat) a + S384x128.size a ≤ S384x128.size a
  h_S384x128 : 0 < S384x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S4096x1024_S1024x128_S4096x128_1_0_0_1_n_n_wf : DotDims.WF S4096x1024 S1024x128 S4096x128 [1] [0] [0] [1] [] []
  dot_S4096x128_S128x384_S4096x384_1_0_0_1_n_n_wf : DotDims.WF S4096x128 S128x384 S4096x384 [1] [0] [0] [1] [] []
  dot_S4096x384_S384x128_S4096x128_1_0_0_1_n_n_wf : DotDims.WF S4096x384 S384x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .bf16 = 32 ∨ (Rect.block (s := S8x1024x128) S1x1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x2.size a ≤ S8x16384x2.size a
  hwx0_1 : ∀ i : grid0.Coords, EltTy.bits .i32 = 32 ∨ (Rect.block (s := S8x16384x2) S1x4096x2.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x128.size a ≤ S8x16384x128.size a
  hwx0_7 : ∀ i : grid0.Coords, EltTy.bits .f32 = 32 ∨ (Rect.block (s := S8x16384x128) S1x4096x128.size (cc0_transform_7 i) (hinb0_7 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x1024x128 : Shape := ⟨3, ![8, 1024, 128]⟩
abbrev S8x16384x2 : Shape := ⟨3, ![8, 16384, 2]⟩
abbrev S256x384 : Shape := ⟨2, ![256, 384]⟩
abbrev S384 : Shape := ⟨1, ![384]⟩
abbrev S384x128 : Shape := ⟨2, ![384, 128]⟩
abbrev S128 : Shape := ⟨1, ![128]⟩
abbrev S8x16384x1 : Shape := ⟨3, ![8, 16384, 1]⟩
abbrev S_ : Shape := ⟨0, ![]⟩
abbrev S1 : Shape := ⟨1, ![1]⟩
abbrev S1x1x1 : Shape := ⟨3, ![1, 1, 1]⟩
abbrev S8x16384 : Shape := ⟨2, ![8, 16384]⟩
abbrev S8x16384x128 : Shape := ⟨3, ![8, 16384, 128]⟩
abbrev S8x16384x256 : Shape := ⟨3, ![8, 16384, 256]⟩
abbrev S8x16384x384 : Shape := ⟨3, ![8, 16384, 384]⟩
abbrev S1x1x384 : Shape := ⟨3, ![1, 1, 384]⟩
abbrev S1x1x128 : Shape := ⟨3, ![1, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x16384x2, .i32⟩
  | .hbm, ⟨2, _⟩ => ⟨S256x384, .f32⟩
  | .hbm, ⟨3, _⟩ => ⟨S384, .f32⟩
  | .hbm, ⟨4, _⟩ => ⟨S384x128, .f32⟩
  | .hbm, ⟨5, _⟩ => ⟨S128, .f32⟩
  | .hbm, ⟨6, _⟩ => ⟨S8x16384x1, .i32⟩
  | .hbm, ⟨7, _⟩ => ⟨S_, .i32⟩
  | .hbm, ⟨8, _⟩ => ⟨S8x16384x1, .i32⟩
  | .hbm, ⟨9, _⟩ => ⟨S8x16384x1, .i1⟩
  | .hbm, ⟨10, _⟩ => ⟨S_, .i32⟩
  | .hbm, ⟨11, _⟩ => ⟨S8x16384x1, .i32⟩
  | .hbm, ⟨12, _⟩ => ⟨S8x16384x1, .i32⟩
  | .hbm, ⟨13, _⟩ => ⟨S8x16384x1, .i32⟩
  | .hbm, ⟨14, _⟩ => ⟨S1, .i32⟩
  | .hbm, ⟨15, _⟩ => ⟨S_, .i32⟩
  | .hbm, ⟨16, _⟩ => ⟨S8x16384x1, .i32⟩
  | .hbm, ⟨17, _⟩ => ⟨S8x16384x1, .i1⟩
  | .hbm, ⟨18, _⟩ => ⟨S1x1x1, .i32⟩
  | .hbm, ⟨19, _⟩ => ⟨S8x16384x1, .i32⟩
  | .hbm, ⟨20, _⟩ => ⟨S8x16384x1, .i1⟩
  | .hbm, ⟨21, _⟩ => ⟨S8x16384x1, .i1⟩
  | .hbm, ⟨22, _⟩ => ⟨S_, .i1⟩
  | .hbm, ⟨23, _⟩ => ⟨S8x16384, .i1⟩
  | .hbm, ⟨24, _⟩ => ⟨S8x16384x128, .f32⟩
  | .hbm, ⟨25, _⟩ => ⟨S8x16384x128, .i1⟩
  | .hbm, ⟨26, _⟩ => ⟨S_, .f32⟩
  | .hbm, ⟨27, _⟩ => ⟨S8x16384x128, .f32⟩
  | .hbm, ⟨28, _⟩ => ⟨S8x16384x128, .f32⟩
  | .hbm, ⟨29, _⟩ => ⟨S8x16384x1, .i32⟩
  | .hbm, ⟨30, _⟩ => ⟨S_, .i32⟩
  | .hbm, ⟨31, _⟩ => ⟨S8x16384x1, .i32⟩
  | .hbm, ⟨32, _⟩ => ⟨S8x16384x1, .i1⟩
  | .hbm, ⟨33, _⟩ => ⟨S_, .i32⟩
  | .hbm, ⟨34, _⟩ => ⟨S8x16384x1, .i32⟩
  | .hbm, ⟨35, _⟩ => ⟨S8x16384x1, .i32⟩
  | .hbm, ⟨36, _⟩ => ⟨S8x16384x1, .i32⟩
  | .hbm, ⟨37, _⟩ => ⟨S1, .i32⟩
  | .hbm, ⟨38, _⟩ => ⟨S_, .i32⟩
  | .hbm, ⟨39, _⟩ => ⟨S8x16384x1, .i32⟩
  | .hbm, ⟨40, _⟩ => ⟨S8x16384x1, .i1⟩
  | .hbm, ⟨41, _⟩ => ⟨S1x1x1, .i32⟩
  | .hbm, ⟨42, _⟩ => ⟨S8x16384x1, .i32⟩
  | .hbm, ⟨43, _⟩ => ⟨S8x16384x1, .i1⟩
  | .hbm, ⟨44, _⟩ => ⟨S8x16384x1, .i1⟩
  | .hbm, ⟨45, _⟩ => ⟨S_, .i1⟩
  | .hbm, ⟨46, _⟩ => ⟨S8x16384, .i1⟩
  | .hbm, ⟨47, _⟩ => ⟨S8x16384x128, .f32⟩
  | .hbm, ⟨48, _⟩ => ⟨S8x16384x128, .i1⟩
  | .hbm, ⟨49, _⟩ => ⟨S_, .f32⟩
  | .hbm, ⟨50, _⟩ => ⟨S8x16384x128, .f32⟩
  | .hbm, ⟨51, _⟩ => ⟨S8x16384x128, .f32⟩
  | .hbm, ⟨52, _⟩ => ⟨S8x16384x256, .f32⟩
  | .hbm, ⟨53, _⟩ => ⟨S8x16384x384, .f32⟩
  | .hbm, ⟨54, _⟩ => ⟨S1x1x384, .f32⟩
  | .hbm, ⟨55, _⟩ => ⟨S8x16384x384, .f32⟩
  | .hbm, ⟨56, _⟩ => ⟨S8x16384x384, .f32⟩
  | .hbm, ⟨57, _⟩ => ⟨S_, .f32⟩
  | .hbm, ⟨58, _⟩ => ⟨S8x16384x384, .f32⟩
  | .hbm, ⟨59, _⟩ => ⟨S8x16384x384, .f32⟩
  | .hbm, ⟨60, _⟩ => ⟨S8x16384x128, .f32⟩
  | .hbm, ⟨61, _⟩ => ⟨S1x1x128, .f32⟩
  | .hbm, ⟨62, _⟩ => ⟨S8x16384x128, .f32⟩
  | .hbm, ⟨63, _⟩ => ⟨S8x16384x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_v2 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_call2_cst : Ref sig .tc := ⟨.hbm, 57, rfl⟩
abbrev main_call2_v0 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩

abbrev nD : Nat := 1
abbrev τ : Topo := Topo.v7x

variable {F : FTy → Type} [FloatOps F]

class Facts₀ : Prop where
  slices_S8x16384x2_S8x16384x1_0_0_0 : S8x16384x2.Slices ![0, 0, 0] S8x16384x1
  bcast_S_S8x16384x1 : S_.BroadcastsInDim S8x16384x1 (![] : Fin 0 → Fin S8x16384x1.rank)
  bcast_S1_S1x1x1_2 : S1.BroadcastsInDim S1x1x1 (![2] : Fin 1 → Fin S1x1x1.rank)
  bcast_S1x1x1_S8x16384x1_0_1_2 : S1x1x1.BroadcastsInDim S8x16384x1 (![0, 1, 2] : Fin 3 → Fin S8x16384x1.rank)
  reducesTo_S8x16384x1_S8x16384_d2 : S8x16384x1.ReducesTo [2] S8x16384
  h_S_ : 0 < S_.numel
  bcast_S8x16384_S8x16384x128_0_1 : S8x16384.BroadcastsInDim S8x16384x128 (![0, 1] : Fin 2 → Fin S8x16384x128.rank)
  bcast_S_S8x16384x128 : S_.BroadcastsInDim S8x16384x128 (![] : Fin 0 → Fin S8x16384x128.rank)
  slices_S8x16384x2_S8x16384x1_0_0_1 : S8x16384x2.Slices ![0, 0, 1] S8x16384x1
  concatenates_S8x16384x128_S8x16384x128_S8x16384x256_d2 : Shape.Concatenates [S8x16384x128, S8x16384x128] S8x16384x256 2
  bcast_S384_S1x1x384_2 : S384.BroadcastsInDim S1x1x384 (![2] : Fin 1 → Fin S1x1x384.rank)
  bcast_S1x1x384_S8x16384x384_0_1_2 : S1x1x384.BroadcastsInDim S8x16384x384 (![0, 1, 2] : Fin 3 → Fin S8x16384x384.rank)
  bcast_S_S8x16384x384 : S_.BroadcastsInDim S8x16384x384 (![] : Fin 0 → Fin S8x16384x384.rank)
  bcast_S128_S1x1x128_2 : S128.BroadcastsInDim S1x1x128 (![2] : Fin 1 → Fin S1x1x128.rank)
  bcast_S1x1x128_S8x16384x128_0_1_2 : S1x1x128.BroadcastsInDim S8x16384x128 (![0, 1, 2] : Fin 3 → Fin S8x16384x128.rank)
  gather_S8x1024x128_S8x16384x1_S8x16384x128_2_1_0_0_1_2_11128_wf : GatherDims.WF S8x1024x128 S8x16384x1 S8x16384x128 [2] [1] [0] [1] [0] 2 ![1, 1, 128]
  dot_S8x16384x256_S256x384_S8x16384x384_2_0_01_1_n_n_wf : DotDims.WF S8x16384x256 S256x384 S8x16384x384 [2] [0] [0, 1] [1] [] []
  dot_S8x16384x384_S384x128_S8x16384x128_2_0_01_1_n_n_wf : DotDims.WF S8x16384x384 S384x128 S8x16384x128 [2] [0] [0, 1] [1] [] []

variable [Facts₀]

def gather_S8x1024x128_S8x16384x1_S8x16384x128_2_1_0_0_1_2_11128 : GatherDims S8x1024x128 S8x16384x1 S8x16384x128 where
  offsetDims := [2]
  collapsedSliceDims := [1]
  operandBatchingDims := [0]
  startIndicesBatchingDims := [0]
  startIndexMap := [1]
  indexVectorDim := 2
  sliceSizes := ![1, 1, 128]
  wf := gather_S8x1024x128_S8x16384x1_S8x16384x128_2_1_0_0_1_2_11128_wf
def dot_S8x16384x256_S256x384_S8x16384x384_2_0_01_1_n_n : DotDims S8x16384x256 S256x384 S8x16384x384 where
  lhsContracting := [2]
  rhsContracting := [0]
  lhsNonContracting := [0, 1]
  rhsNonContracting := [1]
  lhsBatch := []
  rhsBatch := []
  wf := dot_S8x16384x256_S256x384_S8x16384x384_2_0_01_1_n_n_wf
def dot_S8x16384x384_S384x128_S8x16384x128_2_0_01_1_n_n : DotDims S8x16384x384 S384x128 S8x16384x128 where
  lhsContracting := [2]
  rhsContracting := [0]
  lhsNonContracting := [0, 1]
  rhsNonContracting := [1]
  lhsBatch := []
  rhsBatch := []
  wf := dot_S8x16384x384_S384x128_S8x16384x128_2_0_01_1_n_n_wf

class Facts : Prop extends Facts₀ where

variable [Facts]
-- ==== Proof.Spec.lean ====
/-
  The relation projection, as ONE function of the six argument arrays.

  For batch `b` and relation `r` the two ids `ids[b, r, 0]` and `ids[b, r, 1]` each name a row of the span
  table `span[b, ·, ·]` (1024 rows of 128 numbers). The two picked rows, laid side by side, are a vector of 256
  numbers; the first layer multiplies it into `W1` (256 × 384) and adds `b1`, the rectifier keeps the positive
  part, and the second layer multiplies into `W2` (384 × 128) and adds `b2`:

    hidden b r f = (Σ_{d<128} span[b, id₀, d] · W1[d, f] + Σ_{d<128} span[b, id₁, d] · W1[128 + d, f]) + b1[f]
    G (b, r, o)  = Σ_{f<384} max (hidden b r f) 0 · W2[f, o] + b2[o]

  The product of the 256-vector with `W1` is written as the two half sums (over the rows 0..127 and 128..255 of
  `W1`); `sum_halves` is the law that joins them to the one sum over 256, and it holds on the extended reals as
  it stands (addition there is commutative and associative; nothing is cancelled or distributed), so no
  finiteness is used. An id is read as a row number by `row`: its unsigned value, reduced into the table's 1024
  rows; on an id in range that is the id itself (`row_of_lt`).
-/
import Idealize.ShloMosaic.PureOps.Ideal
import Idealize.ShloMosaic.PureOps.Ideal.Laws
import Idealize.ShloMosaic.Lib.ValueIdx
import Mathlib.Algebra.BigOperators.Fin

noncomputable section

namespace Cert.RelProj

open Idealize.ShloMosaic Idealize.ShloMosaic.ValueIdx

abbrev SSpan : Shape := ⟨3, ![8, 1024, 128]⟩
abbrev SIds : Shape := ⟨3, ![8, 16384, 2]⟩
abbrev SW1 : Shape := ⟨2, ![256, 384]⟩
abbrev SB1 : Shape := ⟨1, ![384]⟩
abbrev SW2 : Shape := ⟨2, ![384, 128]⟩
abbrev SB2 : Shape := ⟨1, ![128]⟩
abbrev SOut : Shape := ⟨3, ![8, 16384, 128]⟩

/-- The table row a 32-bit id names: its unsigned value, reduced into the 1024 rows. -/
def row (w : BitVec 32) : Fin 1024 := ⟨w.toNat % 1024, Nat.mod_lt _ (by norm_num)⟩

/-- On an id in range the row is the id's own value. -/
theorem row_of_lt {w : BitVec 32} (h : w.toNat < 1024) : (row w).val = w.toNat := Nat.mod_eq_of_lt h

/-- Row `d` of the upper half of `W1` (rows 0..127) and of its lower half (rows 128..255). -/
abbrev upper (d : Fin 128) : Fin 256 := ⟨d.val, by omega⟩
abbrev lower (d : Fin 128) : Fin 256 := ⟨128 + d.val, by omega⟩

/-- Entry `d` of the span row that side `e` (0: head, 1: tail) of relation `(b, r)` names. -/
def picked (span : FVec Ideal SSpan .f32) (ids : IVec SIds 32) (b : Fin 8) (r : Fin 16384) (e : Fin 2) (d : Fin 128) : EReal :=
  span (ix3 b (row (ids (ix3 b r e))) d)

/-- The first layer before the rectifier, at relation `(b, r)` and hidden unit `f`. -/
def hidden (span : FVec Ideal SSpan .f32) (ids : IVec SIds 32) (W1 : FVec Ideal SW1 .f32) (b1 : FVec Ideal SB1 .f32)
    (b : Fin 8) (r : Fin 16384) (f : Fin 384) : EReal :=
  (∑ d : Fin 128, picked span ids b r 0 d * W1 (ix2 (upper d) f) + ∑ d : Fin 128, picked span ids b r 1 d * W1 (ix2 (lower d) f))
    + b1 (ix1 f)

/-- The projection's result, index by index. -/
def G (span : FVec Ideal SSpan .f32) (ids : IVec SIds 32) (W1 : FVec Ideal SW1 .f32) (b1 : FVec Ideal SB1 .f32)
    (W2 : FVec Ideal SW2 .f32) (b2 : FVec Ideal SB2 .f32) : FVec Ideal SOut .f32 := fun i =>
  (∑ f : Fin 384, max (hidden span ids W1 b1 (i 0) (i 1) f) 0 * W2 (ix2 f (i 2))) + b2 (ix1 (i 2))

/-- A sum over 256 terms is the sum of its first 128 and its last 128 terms, in any commutative monoid. -/
theorem sum_halves {M : Type*} [AddCommMonoid M] (g : Fin 256 → M) :
    ∑ k : Fin 256, g k = ∑ d : Fin 128, g (upper d) + ∑ d : Fin 128, g (lower d) := by
  have h : ∑ k : Fin (128 + 128), g k = _ := Fin.sum_univ_add (a := 128) (b := 128) (fun k => g k)
  exact h

/-- A sum against a one-hot row keeps the one term the row selects: with `a k` the selector (one at `k = k₀`, zero
    elsewhere), `Σ_k a k · x k = x k₀`. On the extended reals zero times anything is zero, so this needs nothing of `x`. -/
theorem sum_onehot {n : Nat} (k₀ : Fin n) (a x : Fin n → EReal) (h1 : a k₀ = 1) (h0 : ∀ k, k ≠ k₀ → a k = 0) :
    ∑ k : Fin n, a k * x k = x k₀ := by
  rw [Finset.sum_eq_single k₀ (fun k _ hk => by rw [h0 k hk, zero_mul]) (fun h => absurd (Finset.mem_univ _) h), h1, one_mul]

end Cert.RelProj

end
-- ==== Proof.PreIds.lean ====
/-
  What the precondition says of the ids.

  The printed precondition is a conjunction of six `all`s; the last one is `all (0 ≤ ids ∧ ids < 1024)`, both
  comparisons signed. A 32-bit word that is, read signed, at least 0 and below 1024 has its sign bit clear, so its
  unsigned value is its signed value and lies below 1024: every id is the number of a row of the 1024-row span table.
  This is the only part of the precondition the value proof uses: the laws that join the kernel's sums to the
  reference's hold on all extended reals, so finiteness of the float inputs is never opened.
-/
import proofs.«417520_j53145925320930_3_alg».proof.Pre_finite_inputs
import proofs.«417520_j53145925320930_3_alg».proof.Proof.Gen.Pre_finite_inputs
import Idealize.ShloMosaic.Lib.ReduceAll
import Idealize.ShloMosaic.Lib.ValueIdx
import Idealize.ShloMosaic.Lib.StableHlo.Predicate

noncomputable section

namespace Cert.RelProj.PreIds

open Idealize.ShloMosaic Cert.Pre_finite_inputs

instance : Subsingleton S_.Idx := ⟨fun a b => funext fun d => d.elim0⟩

/-- A word that is signed-at-least 0 and signed-below 1024 has unsigned value below 1024. -/
theorem toNat_lt_of_signed_range (w : BitVec 32) (h0 : IntOp.cmpi .sge w 0#32 = 1#1) (h1 : IntOp.cmpi .slt w 1024#32 = 1#1) :
    w.toNat < 1024 := by
  unfold IntOp.cmpi at h0 h1
  rw [StableHlo.Predicate.ofBool_eq_one_iff] at h0 h1
  simp only [BitVec.sle, BitVec.slt, decide_eq_true_eq] at h0 h1
  have hw := BitVec.toInt_eq_toNat_cond w
  have e0 : (0#32 : BitVec 32).toInt = 0 := by decide
  have e1 : (1024#32 : BitVec 32).toInt = 1024 := by decide
  rw [e0] at h0; rw [e1] at h1
  have := w.isLt
  split at hw <;> omega

/-- Under the precondition every id is below 1024. -/
theorem ids_lt {F : FTy → Type} [FloatOps F] (x0 : FVec F S8x1024x128 .f32) (x1 : IVec S8x16384x2 32) (x2 : FVec F S256x384 .f32)
    (x3 : FVec F S384 .f32) (x4 : FVec F S384x128 .f32) (x5 : FVec F S128 .f32)
    (h : fn (F := F) x0 x1 x2 x3 x4 x5 = fun _ => 1#1) (i : S8x16384x2.Idx) : (x1 i).toNat < 1024 := by
  have h' := congrFun h ValueIdx.ix0
  dsimp only [fn, fn_part1] at h'
  obtain ⟨_, h29⟩ := IntOp.andi_eq_one.1 h'
  have hi := Host.reduce_andi_all _ _ _ _ _ h29 i
  obtain ⟨hge, hlt⟩ := IntOp.andi_eq_one.1 hi
  exact toNat_lt_of_signed_range _ hge hlt

end Cert.RelProj.PreIds

end
-- ==== Proof.LibPlainDot.lean ====
/-
  Three general facts about a plain matrix product at the ideal values.

  * `plain_matmul_apply`: the product of an M×K matrix with a K×N matrix, accumulated into zero, read at `(r, c)` is
    `Σ_k a (r, k) · b (k, c)` — the contraction index of the plain dimension numbers is its one coordinate.
  * `bcast_col_apply`: a column `[a, 1]` broadcast to `[a, b]` reads, at `(p, q)`, the column's entry `(p, 0)`.
  * `onehot_row_apply` and `onehot_matmul_apply`: the selector matrix whose row `r` is one at the column whose number
    is the word `col (r, 0)` and zero elsewhere, multiplied into a table with K rows, picks the table's row of that
    number, provided the word's value is below K: `Σ_s [col r = s] · tbl (s, d) = tbl (col r, d)`. On the extended reals
    `0 · x = 0` for every `x`, so nothing is asked of the table's entries.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import Idealize.ShloMosaic.Lib.StableHlo.Predicate

noncomputable section

namespace Idealize.ShloMosaic.PlainDot

open Idealize.ShloMosaic Idealize.ShloMosaic.ValueIdx

/-- A plain M×K by K×N product into the zero accumulator, at `(r, c)`: the sum over the K products. -/
theorem plain_matmul_apply {φ₁ φ₂ : FTy} (M K N : Nat) (prec : Option ContractPrecision)
    (a : FVec Ideal ⟨2, ![M, K]⟩ φ₁) (b : FVec Ideal ⟨2, ![K, N]⟩ φ₂) (r : Fin M) (c : Fin N) :
    matmul (DotDims.plain M K N) prec a b (constant ⟨2, ![M, N]⟩ .f32 0x00000000#32) (ix2 r c)
      = ∑ k : Fin K, a (ix2 r k) * b (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => rfl
      | ⟨1, _⟩ => refine Eq.trans ?_ hk; rfl)
  have er : (DotDims.plain M K N).rhsIdx (ix2 r c) ((contrEquiv1 (DotDims.plain M K N) K rfl rfl).symm k) = ix2 k c :=
    funext fun ax => Fin.ext (by
      match ax with
      | ⟨0, _⟩ => refine Eq.trans ?_ hk; rfl
      | ⟨1, _⟩ => rfl)
  rw [el, er]

/-- A column broadcast across `b` columns reads the column's entry of the same row. -/
theorem bcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry `(r, s)` of the selector: one where column number `s` is the word `col (r, 0)`, zero elsewhere. -/
theorem onehot_row_apply {R K : ℕ} (col : IVec ⟨2, ![R, 1]⟩ 32) (hb : (⟨2, ![R, 1]⟩ : Shape).Broadcasts ⟨2, ![R, K]⟩)
    (hi : (⟨2, ![R, K]⟩ : Shape).Iotas .tc 32 [1]) (r : Fin R) (s : Fin K) :
    (select (cmpi .eq (broadcastTo ⟨2, ![R, K]⟩ col hb) (iota .tc ⟨2, ![R, K]⟩ 32 [1] hi))
        (broadcast ⟨2, ![R, K]⟩ (Scalar.ofBits (F := Ideal) .f32 0x3F800000#32))
        (broadcast ⟨2, ![R, K]⟩ (Scalar.ofBits (F := Ideal) .f32 0x00000000#32)) : FVec Ideal ⟨2, ![R, K]⟩ .f32) (ix2 r s)
      = if col (ix2 r (0 : Fin 1)) = BitVec.ofNat 32 s.val then (1 : EReal) else 0 := by
  rw [select_apply]
  show Scalar.select (IntOp.cmpi .eq (broadcastTo ⟨2, ![R, K]⟩ col hb (ix2 r s)) (iota .tc ⟨2, ![R, K]⟩ 32 [1] hi (ix2 r s)))
    (Ideal.ofBits .f32 0x3F800000#32) (Ideal.ofBits .f32 0x00000000#32) = _
  rw [bcast_col_apply, iota_single_apply, Ideal.ofBits_one_f32, Ideal.ofBits_zero_f32]
  show Scalar.select (IntOp.cmpi .eq (col (ix2 r (0 : Fin 1))) (BitVec.ofNat 32 s.val)) (1 : EReal) 0 = _
  by_cases h : col (ix2 r (0 : Fin 1)) = BitVec.ofNat 32 s.val
  · rw [if_pos h, StableHlo.Predicate.cmpi_eq_iff.2 h, select_one]
  · rw [if_neg h, eq_zero_of_ne_one (fun e => h (StableHlo.Predicate.cmpi_eq_iff.1 e)), select_zero]

end Idealize.ShloMosaic.PlainDot

end
-- ==== Proof.KernelPay.lean ====
/-
  The kernel body's arithmetic, read at one entry of its output block.

  At a grid point the body holds: the span table of one batch (1024 rows of 128), a tile of 4096 relations' id
  pairs, the upper and the lower half of `W1` (128 × 384 each), `b1` as a row, `W2` (384 × 128) and `b2` as a row.
  For relation `r` of the tile it builds, for each of the two ids, the selector row that is one at the id's
  column and zero elsewhere, and multiplies it into the table: that is the table's row of that number
  (`gathered_apply`), provided the id is below 1024. The first layer is the sum of the two picked rows' products
  with the two halves of `W1`, plus `b1` (`hidden_apply`); the rectifier is the maximum with zero, the second layer
  the product with `W2` plus `b2` (`pay_apply`). Changes of float format are the identity on the ideal values.
-/
import proofs.«417520_j53145925320930_3_alg».proof.Proof.Gen.KernelIdeal.Skeleton
import proofs.«417520_j53145925320930_3_alg».proof.Proof.Spec
import proofs.«417520_j53145925320930_3_alg».proof.Proof.LibPlainDot
import Idealize.ShloMosaic.Lib.ValueLayout

noncomputable section

namespace Cert.RelProj.KernelPay

open Idealize.ShloMosaic Idealize.ShloMosaic.ValueIdx Idealize.ShloMosaic.PlainDot Cert.KernelIdeal Cert.KernelIdeal.Gen Cert.RelProj

variable (v0 : Vec Ideal S1x1024x128 .bf16) (v2 : Vec Ideal S1x4096x2 .i32) (v23 v26 : Vec Ideal S128x384 .f32)
  (v32 : Vec Ideal S1x384 .f32) (v39 : Vec Ideal S384x128 .f32) (v42 : Vec Ideal S1x128 .f32)

/-- Entry `d` of the table row that side `e` of the tile's relation `r` names. -/
def bpicked (r : Fin 4096) (e : Fin 2) (d : Fin 128) : EReal :=
  v0 (ix3 (0 : Fin 1) (row (v2 (ix3 (0 : Fin 1) r e))) d)

/-- The first layer before the rectifier, for the tile's relation `r` and hidden unit `f`. -/
def bhidden (r : Fin 4096) (f : Fin 384) : EReal :=
  (∑ d : Fin 128, bpicked v0 v2 r 0 d * v23 (ix2 d f) + ∑ d : Fin 128, bpicked v0 v2 r 1 d * v26 (ix2 d f))
    + v32 (ix2 (0 : Fin 1) f)

/-! ## The three products, as plain sums -/

theorem gather_mm_apply (a : FVec Ideal S4096x1024 .bf16) (b : FVec Ideal S1024x128 .bf16) (r : Fin 4096) (d : Fin 128) :
    matmul dot_S4096x1024_S1024x128_S4096x128_1_0_0_1_n_n none a b (constant S4096x128 .f32 0x00000000#32) (ix2 r d)
      = ∑ k : Fin 1024, a (ix2 r k) * b (ix2 k d) :=
  plain_matmul_apply 4096 1024 128 none a b r d

theorem dense1_apply (a : FVec Ideal S4096x128 .bf16) (b : FVec Ideal S128x384 .bf16) (r : Fin 4096) (f : Fin 384) :
    matmul dot_S4096x128_S128x384_S4096x384_1_0_0_1_n_n none a b (constant S4096x384 .f32 0x00000000#32) (ix2 r f)
      = ∑ k : Fin 128, a (ix2 r k) * b (ix2 k f) :=
  plain_matmul_apply 4096 128 384 none a b r f

theorem dense2_apply (a : FVec Ideal S4096x384 .bf16) (b : FVec Ideal S384x128 .bf16) (r : Fin 4096) (o : Fin 128) :
    matmul dot_S4096x384_S384x128_S4096x128_1_0_0_1_n_n none a b (constant S4096x128 .f32 0x00000000#32) (ix2 r o)
      = ∑ k : Fin 384, a (ix2 r k) * b (ix2 k o) :=
  plain_matmul_apply 4096 384 128 none a b r o

/-! ## A picked row -/

/-- A word below 1024 is the 32-bit word of its own row number. -/
theorem eq_ofNat_row {w : BitVec 32} (h : w.toNat < 1024) : w = BitVec.ofNat 32 (row w).val := by
  apply BitVec.eq_of_toNat_eq
  rw [BitVec.toNat_ofNat, row_of_lt h]
  exact (Nat.mod_eq_of_lt (by omega)).symm

/-- Another column's word is not that word. -/
theorem ne_ofNat_of_ne_row {w : BitVec 32} (k : Fin 1024) (hk : k ≠ row w) : ¬ w = BitVec.ofNat 32 k.val := by
  intro e
  apply hk
  apply Fin.ext
  have hw : w.toNat = k.val := by
    rw [e, BitVec.toNat_ofNat]; exact Nat.mod_eq_of_lt (by have := k.isLt; omega)
  show k.val = w.toNat % 1024
  rw [hw]; exact (Nat.mod_eq_of_lt k.isLt).symm

/-- The selector of side `e` (the id column cut at offset `o = e`), multiplied into the table, is the picked row. -/
theorem gathered_apply (o : Nat) (e : Fin 2) (he : e.val = o) (hc : S1x4096x2.ShapeCasts S4096x2) (hs : S4096x2.Slices ![0, o] S4096x1)
    (hb : S4096x1.Broadcasts S4096x1024) (hi : S4096x1024.Iotas .tc 32 [1]) (hl : FTy.bits .bf16 < FTy.bits .f32)
    (hc0 : S1x1024x128.ShapeCasts S1024x128) (r : Fin 4096) (d : Fin 128) (hid : (v2 (ix3 (0 : Fin 1) r e)).toNat < 1024) :
    matmul dot_S4096x1024_S1024x128_S4096x128_1_0_0_1_n_n none
        (truncf .bf16 (select (cmpi .eq (broadcastTo S4096x1024 (extractStridedSlice S4096x1 ![0, o] (shapeCast S4096x2 v2 hc) hs) hb)
            (iota .tc S4096x1024 32 [1] hi))
          (broadcast S4096x1024 (Scalar.ofBits (F := Ideal) .f32 0x3F800000#32))
          (broadcast S4096x1024 (Scalar.ofBits (F := Ideal) .f32 0x00000000#32))) hl)
        (shapeCast S1024x128 v0 hc0 : FVec Ideal S1024x128 .bf16) (constant S4096x128 .f32 0x00000000#32) (ix2 r d)
      = bpicked v0 v2 r e d := by
  rw [gather_mm_apply]
  have hcol : (extractStridedSlice S4096x1 ![0, o] (shapeCast S4096x2 v2 hc) hs) (ix2 r (0 : Fin 1)) = v2 (ix3 (0 : Fin 1) r e) := by
    rw [slice2_axis1_apply o _ hs r (0 : Fin 1) e (by rw [he]; rfl)]
    exact shapeCast_1ab_ab_apply v2 hc r e
  refine (sum_onehot (row (v2 (ix3 (0 : Fin 1) r e))) _ _ ?_ ?_).trans ?_
  · show (select _ _ _ : FVec Ideal S4096x1024 .f32) (ix2 r (row (v2 (ix3 (0 : Fin 1) r e)))) = 1
    rw [onehot_row_apply, hcol, if_pos (eq_ofNat_row hid)]
  · intro k hk
    show (select _ _ _ : FVec Ideal S4096x1024 .f32) (ix2 r k) = 0
    rw [onehot_row_apply, hcol, if_neg (ne_ofNat_of_ne_row k hk)]
  · exact shapeCast_1ab_ab_apply v0 hc0 _ d

/-! ## The first layer and the stored block -/

theorem hidden_apply (r : Fin 4096) (f : Fin 384) (h0 : (v2 (ix3 (0 : Fin 1) r 0)).toNat < 1024)
    (h1 : (v2 (ix3 (0 : Fin 1) r 1)).toNat < 1024) :
    k0_pay2 v0 v2 v23 v26 v32 (ix2 r f) = bhidden v0 v2 v23 v26 v32 r f := by
  unfold k0_pay2
  try dsimp only
  rw [addf_apply, addf_apply, dense1_apply, dense1_apply, broadcastTo_1b_ab_apply]
  unfold bhidden
  congr 1
  · congr 1
    · refine Finset.sum_congr rfl fun k _ => ?_
      rw [truncf_apply, truncf_apply, gathered_apply v0 v2 0 0 rfl _ _ _ _ _ _ r k h0, shapeCast_self]
    · refine Finset.sum_congr rfl fun k _ => ?_
      rw [truncf_apply, truncf_apply, gathered_apply v0 v2 1 1 rfl _ _ _ _ _ _ r k h1, shapeCast_self]
  · exact congrFun (shapeCast_self v32 _) _

/-- The entry `(r, o)` of the block the body stores: the rectified first layer times `W2`, plus `b2`. -/
theorem pay_apply (r : Fin 4096) (o : Fin 128) (hids : ∀ e : Fin 2, (v2 (ix3 (0 : Fin 1) r e)).toNat < 1024) :
    k0_pay1 (k0_pay2 v0 v2 v23 v26 v32) (k0_pay3 (F := Ideal)) v39 v42 (ix3 (0 : Fin 1) r o)
      = (∑ f : Fin 384, max (bhidden v0 v2 v23 v26 v32 r f) 0 * v39 (ix2 f o)) + v42 (ix2 (0 : Fin 1) o) := by
  unfold k0_pay1
  try dsimp only
  rw [shapeCast_ab_1ab_apply, addf_apply, dense2_apply, broadcastTo_1b_ab_apply]
  congr 1
  · refine Finset.sum_congr rfl fun k _ => ?_
    have hz : (k0_pay3 (F := Ideal)) (ix2 r k) = 0 := by
      unfold k0_pay3
      show Ideal.ofBits .f32 0x00000000#32 = 0
      exact Ideal.ofBits_zero_f32
    rw [truncf_apply, truncf_apply, maximumf_apply, hidden_apply v0 v2 v23 v26 v32 r k (hids 0) (hids 1), hz]
  · exact congrFun (shapeCast_self v42 _) _

end Cert.RelProj.KernelPay

end
-- ==== Proof.KernelBlocks.lean ====
/-
  From the blocks the grid points write to the whole result array.

  The grid has 8 × 4 points; point `(b, j)` reads the span table of batch `b`, the tile `j` of 4096 relations' ids
  of that batch and the whole of the weights, and writes block `(b, j)` of the result: rows `4096·j … 4096·j + 4095`
  of batch `b`. The arrays the region finds are the arguments themselves, or what the operations before the
  region made of them: the span table with its float format changed (the identity on the ideal values), the
  upper and the lower 128 rows of `W1`, and `b1`, `b2` as one-row matrices. So what a point writes back is block
  `(b, j)` of the projection `G` of the argument arrays (`flushed_eq`), the 32 blocks tile the result (`cover`), and
  the array ends holding `G` (`final`).
-/
import proofs.«417520_j53145925320930_3_alg».proof.Proof.Gen.KernelIdeal.Value
import proofs.«417520_j53145925320930_3_alg».proof.Proof.KernelPay
import Idealize.ShloMosaic.Lib.StableHlo.Run

set_option maxRecDepth 16384

noncomputable section

namespace Cert.RelProj.KernelBlocks

open Cert.KernelIdeal Cert.KernelIdeal.Gen Idealize.ShloMosaic Idealize.ShloMosaic.TcCoe Idealize.SL.Sem
open Idealize.ShloMosaic.ValueIdx Cert.RelProj
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds -/

/-- The span table the region finds is the argument, its float format changed: the same ideal values. -/
theorem V_span (c : Dev nD) : (V m c main_v0 : S8x1024x128.Idx → EReal) = m ((c : Thread nD τ).loc main_arg0) := by
  dsimp only [Gen.V, Gen.hostOps0]; after_results <;> rfl

/-- The first weight window's array is the upper 128 rows of `W1`. -/
theorem V_upper (c : Dev nD) : (V m c main_v1 : S128x384.Idx → EReal)
    = extractStridedSlice S128x384 ![0, 0] (m ((c : Thread nD τ).loc main_arg2)) slices_S256x384_S128x384_0_0 := by
  dsimp only [Gen.V, Gen.hostOps0]; after_results <;> rfl

/-- The second weight window's array is the lower 128 rows of `W1`. -/
theorem V_lower (c : Dev nD) : (V m c main_v2 : S128x384.Idx → EReal)
    = extractStridedSlice S128x384 ![128, 0] (m ((c : Thread nD τ).loc main_arg2)) slices_S256x384_S128x384_128_0 := by
  dsimp only [Gen.V, Gen.hostOps0]; after_results <;> rfl

/-- `b1` as a one-row matrix. -/
theorem V_b1 (c : Dev nD) : (V m c main_v3 : S1x384.Idx → EReal)
    = shapeCast S1x384 (m ((c : Thread nD τ).loc main_arg3)) shapeCasts_S384_S1x384 := by
  dsimp only [Gen.V, Gen.hostOps0]; after_results <;> rfl

/-- `b2` as a one-row matrix. -/
theorem V_b2 (c : Dev nD) : (V m c main_v4 : S1x128.Idx → EReal)
    = shapeCast S1x128 (m ((c : Thread nD τ).loc main_arg5)) shapeCasts_S128_S1x128 := by
  dsimp only [Gen.V, Gen.hostOps0]; after_results <;> rfl

/-! ## The index maps, decided over the 32 grid points -/

/-- Window 0 (the span table) follows the result's batch; window 1 (the ids) follows its batch and tile; the five
    weight windows stay at block 0; the result's block index is `(b, j, 0)` with `b ≤ 7`, `j ≤ 3`. -/
theorem idx_facts : ∀ t : Fin cfg0.N,
    win0_0.index t (0 : Fin 3) = win0_7.index t (0 : Fin 3) ∧ win0_0.index t (1 : Fin 3) = 0 ∧ win0_0.index t (2 : Fin 3) = 0
    ∧ win0_1.index t (0 : Fin 3) = win0_7.index t (0 : Fin 3) ∧ win0_1.index t (1 : Fin 3) = win0_7.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 7 ∧ win0_7.index t (1 : Fin 3) ≤ 3 ∧ win0_7.index t (2 : Fin 3) = 0 :=
  (by decide +kernel : ∀ t : Fin grid0.N, _)

/-- Every block `(b, j)` of the result is some point's. -/
theorem idx_onto : ∀ (q0 : Fin 8) (q1 : Fin 4), ∃ t : Fin cfg0.N, win0_7.index t = ![q0.val, q1.val, 0] :=
  (by decide +kernel : ∀ (q0 : Fin 8) (q1 : Fin 4), ∃ t : Fin grid0.N, win0_7.index t = ![q0.val, q1.val, 0])

/-! ## The input blocks, read at an index -/

section Blocks
variable (c : Dev nD) (t : Fin cfg0.N)

/-- Row `s` of the point's span block is row `s` of batch `b` of the argument. -/
theorem span_blk (s : Fin 1024) (d : Fin 128) (bq : Fin 8) (hb : bq.val = win0_7.index t (0 : Fin 3)) :
    iblk m c 0 t (ix3 (0 : Fin 1) s d) = m ((c : Thread nD τ).loc main_arg0) (ix3 bq s d) := by
  show V m c main_v0 (((cfg0.win 0).blk t).view.emb (ix3 (0 : Fin 1) s d)) = _
  rw [V_span]
  obtain ⟨e0, e1, e2, -⟩ := idx_facts t
  refine congrArg _ (funext fun a => Fin.ext ?_)
  match a with
  | ⟨0, _⟩ => show win0_0.index t (0 : Fin 3) * 1 + 1 * 0 = bq.val; omega
  | ⟨1, _⟩ => show win0_0.index t (1 : Fin 3) * 1024 + 1 * s.val = s.val; omega
  | ⟨2, _⟩ => show win0_0.index t (2 : Fin 3) * 128 + 1 * d.val = d.val; omega

/-- Relation `r` of the point's id tile is relation `4096·j + r` of batch `b`. -/
theorem ids_blk (r : Fin 4096) (e : Fin 2) (bq : Fin 8) (rq : Fin 16384) (hb : bq.val = win0_7.index t (0 : Fin 3))
    (hr : rq.val = win0_7.index t (1 : Fin 3) * 4096 + r.val) :
    iblk m c 1 t (ix3 (0 : Fin 1) r e) = m ((c : Thread nD τ).loc main_arg1) (ix3 bq rq e) := by
  show V m c main_arg1 (((cfg0.win 1).blk t).view.emb (ix3 (0 : Fin 1) r e)) = _
  rw [V_main_arg1]
  obtain ⟨-, -, -, e3, e4, e5, -⟩ := idx_facts t
  refine congrArg _ (funext fun a => Fin.ext ?_)
  match a with
  | ⟨0, _⟩ => show win0_1.index t (0 : Fin 3) * 1 + 1 * 0 = bq.val; omega
  | ⟨1, _⟩ => show win0_1.index t (1 : Fin 3) * 4096 + 1 * r.val = rq.val; omega
  | ⟨2, _⟩ => show win0_1.index t (2 : Fin 3) * 2 + 1 * e.val = e.val; omega

/-- The first weight block is the upper half of `W1`. -/
theorem upper_blk (d : Fin 128) (f : Fin 384) :
    iblk m c 2 t (ix2 d f) = m ((c : Thread nD τ).loc main_arg2) (ix2 (upper d) f) := by
  show V m c main_v1 (((cfg0.win 2).blk t).view.emb (ix2 d f)) = _
  rw [V_upper]
  obtain ⟨-, -, -, -, -, -, e6, e7, -⟩ := idx_facts t
  refine (extractStridedSlice_apply _ _ _ _ (ix2 (upper d) f) fun a => ?_)
  match a with
  | ⟨0, _⟩ => show d.val = 0 + (win0_2.index t (0 : Fin 2) * 128 + 1 * d.val); omega
  | ⟨1, _⟩ => show f.val = 0 + (win0_2.index t (1 : Fin 2) * 384 + 1 * f.val); omega

/-- The second weight block is the lower half of `W1`. -/
theorem lower_blk (d : Fin 128) (f : Fin 384) :
    iblk m c 3 t (ix2 d f) = m ((c : Thread nD τ).loc main_arg2) (ix2 (lower d) f) := by
  show V m c main_v2 (((cfg0.win 3).blk t).view.emb (ix2 d f)) = _
  rw [V_lower]
  obtain ⟨-, -, -, -, -, -, -, -, e8, e9, -⟩ := idx_facts t
  refine (extractStridedSlice_apply _ _ _ _ (ix2 (lower d) f) fun a => ?_)
  match a with
  | ⟨0, _⟩ => show 128 + d.val = 128 + (win0_3.index t (0 : Fin 2) * 128 + 1 * d.val); omega
  | ⟨1, _⟩ => show f.val = 0 + (win0_3.index t (1 : Fin 2) * 384 + 1 * f.val); omega

/-- The `b1` block is `b1`. -/
theorem b1_blk (f : Fin 384) : iblk m c 4 t (ix2 (0 : Fin 1) f) = m ((c : Thread nD τ).loc main_arg3) (ix1 f) := by
  show V m c main_v3 (((cfg0.win 4).blk t).view.emb (ix2 (0 : Fin 1) f)) = _
  rw [V_b1]
  obtain ⟨-, -, -, -, -, -, -, -, -, -, e10, e11, -⟩ := idx_facts t
  refine shapeCast_apply _ _ _ (ix1 f) ?_
  rw [Shape.rowMajor_val_one, Shape.rowMajor_val_two]
  show f.val = (win0_4.index t (0 : Fin 2) * 1 + 1 * 0) * 384 + (win0_4.index t (1 : Fin 2) * 384 + 1 * f.val)
  omega

/-- The `W2` block is `W2`. -/
theorem w2_blk (f : Fin 384) (o : Fin 128) : iblk m c 5 t (ix2 f o) = m ((c : Thread nD τ).loc main_arg4) (ix2 f o) := by
  show V m c main_arg4 (((cfg0.win 5).blk t).view.emb (ix2 f o)) = _
  rw [V_main_arg4]
  obtain ⟨-, -, -, -, -, -, -, -, -, -, -, -, e12, e13, -⟩ := idx_facts t
  refine congrArg _ (funext fun a => Fin.ext ?_)
  match a with
  | ⟨0, _⟩ => show win0_5.index t (0 : Fin 2) * 384 + 1 * f.val = f.val; omega
  | ⟨1, _⟩ => show win0_5.index t (1 : Fin 2) * 128 + 1 * o.val = o.val; omega

/-- The `b2` block is `b2`. -/
theorem b2_blk (o : Fin 128) : iblk m c 6 t (ix2 (0 : Fin 1) o) = m ((c : Thread nD τ).loc main_arg5) (ix1 o) := by
  show V m c main_v4 (((cfg0.win 6).blk t).view.emb (ix2 (0 : Fin 1) o)) = _
  rw [V_b2]
  obtain ⟨-, -, -, -, -, -, -, -, -, -, -, -, -, -, e14, e15, -⟩ := idx_facts t
  refine shapeCast_apply _ _ _ (ix1 o) ?_
  rw [Shape.rowMajor_val_one, Shape.rowMajor_val_two]
  show o.val = (win0_6.index t (0 : Fin 2) * 1 + 1 * 0) * 128 + (win0_6.index t (1 : Fin 2) * 128 + 1 * o.val)
  omega

/-- Where entry `(r, o)` of the point's result block lies in the result: batch `b`, relation `4096·j + r`, column `o`. -/
theorem out_index (r : Fin 4096) (o : Fin 128) : ∃ (bq : Fin 8) (rq : Fin 16384), bq.val = win0_7.index t (0 : Fin 3)
    ∧ rq.val = win0_7.index t (1 : Fin 3) * 4096 + r.val
    ∧ ((cfg0.win 7).blk t).view.emb (ix3 (0 : Fin 1) r o) = ix3 bq rq o := by
  obtain ⟨-, -, -, -, -, -, -, -, -, -, -, -, -, -, -, -, e16, e17, e18⟩ := idx_facts t
  have hr := r.isLt
  refine ⟨⟨win0_7.index t (0 : Fin 3), by omega⟩, ⟨win0_7.index t (1 : Fin 3) * 4096 + r.val, by omega⟩, rfl, rfl, ?_⟩
  refine funext fun a => Fin.ext ?_
  match a with
  | ⟨0, _⟩ => show win0_7.index t (0 : Fin 3) * 1 + 1 * 0 = win0_7.index t (0 : Fin 3); omega
  | ⟨1, _⟩ => show win0_7.index t (1 : Fin 3) * 4096 + 1 * r.val = win0_7.index t (1 : Fin 3) * 4096 + r.val; omega
  | ⟨2, _⟩ => show win0_7.index t (2 : Fin 3) * 128 + 1 * o.val = o.val; omega

end Blocks

/-! ## What a point writes back, the cover, and the array after the run -/

/-- The projection at an index given by its three coordinates. -/
theorem G_ix3 (span : FVec Ideal SSpan .f32) (ids : IVec SIds 32) (W1 : FVec Ideal SW1 .f32) (b1 : FVec Ideal SB1 .f32)
    (W2 : FVec Ideal SW2 .f32) (b2 : FVec Ideal SB2 .f32) (bq : Fin 8) (rq : Fin 16384) (o : Fin 128) :
    G span ids W1 b1 W2 b2 (ix3 bq rq o)
      = (∑ f : Fin 384, max (hidden span ids W1 b1 bq rq f) 0 * W2 (ix2 f o)) + b2 (ix1 o) := rfl

/-- WHAT POINT `t` WRITES BACK is block `t` of the projection of the argument arrays, when every id is in range. -/
theorem flushed_eq (c : Dev nD) (t : Fin cfg0.N) (hids : ∀ i, (m ((c : Thread nD τ).loc main_arg1) i).toNat < 1024) :
    (dats m 0 c).flushed 7 t = ((cfg0.win 7).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed7]
  unfold out0_7
  rw [View.canon_unit_zero hz3]
  simp only [View.ld_unit_zero (S := S1x1024x128) hz3, View.ld_unit_zero (S := S1x4096x2) hz3,
    View.ld_unit_zero (S := S128x384) hz2, View.ld_unit_zero (S := S1x384) hz2, View.ld_unit_zero (S := S384x128) hz2,
    View.ld_unit_zero (S := S1x128) hz2]
  refine funext fun (y : S1x4096x128.Idx) => ?_
  obtain ⟨u, r, o, rfl⟩ : ∃ (u : Fin 1) (r : Fin 4096) (o : Fin 128), y = ix3 u r o := ⟨y 0, y 1, y 2, eq_ix3 y⟩
  obtain rfl : u = 0 := Subsingleton.elim _ _
  obtain ⟨bq, rq, hbq, hrq, hI⟩ := out_index t r o
  show k0_pay1 (k0_pay2 (iblk m c 0 t) (iblk m c 1 t) (iblk m c 2 t) (iblk m c 3 t) (iblk m c 4 t)) (k0_pay3 (F := Ideal))
      (iblk m c 5 t) (iblk m c 6 t) (ix3 (0 : Fin 1) r o)
    = G _ _ _ _ _ _ (((cfg0.win 7).blk t).view.emb (ix3 (0 : Fin 1) r o))
  rw [hI, G_ix3]
  refine (KernelPay.pay_apply (iblk m c 0 t) (iblk m c 1 t) (iblk m c 2 t) (iblk m c 3 t) (iblk m c 4 t) (iblk m c 5 t)
    (iblk m c 6 t) r o ?_).trans ?_
  · intro e
    rw [ids_blk m c t r e bq rq hbq hrq]
    exact hids _
  · have hp : ∀ (e : Fin 2) (d : Fin 128), KernelPay.bpicked (iblk m c 0 t) (iblk m c 1 t) r e d = picked (m ((c : Thread nD τ).loc main_arg0)) (m ((c : Thread nD τ).loc main_arg1)) bq rq e d := by
      intro e d
      unfold KernelPay.bpicked picked
      rw [ids_blk m c t r e bq rq hbq hrq, span_blk m c t _ d bq hbq]
    have hh : ∀ f : Fin 384, KernelPay.bhidden (iblk m c 0 t) (iblk m c 1 t) (iblk m c 2 t) (iblk m c 3 t) (iblk m c 4 t) r f
        = hidden (m ((c : Thread nD τ).loc main_arg0)) (m ((c : Thread nD τ).loc main_arg1)) (m ((c : Thread nD τ).loc main_arg2)) (m ((c : Thread nD τ).loc main_arg3)) bq rq f := by
      intro f
      unfold KernelPay.bhidden hidden
      simp only [hp, upper_blk m c t, lower_blk m c t, b1_blk m c t]
    simp only [hh, w2_blk m c t, b2_blk m c t]

/-- An index of the result is in point `t`'s block iff each coordinate is in the block's range on its axis. -/
theorem mem_blk (t : Fin cfg0.N) (i : S8x16384x128.Idx) :
    i ∈ ((cfg0.win 7).blk t).view.set ↔ ∀ a : Fin 3, win0_7.index t a * S1x4096x128.size a ≤ (i a).val
      ∧ (i a).val < win0_7.index t a * S1x4096x128.size a + S1x4096x128.size a := by
  show i ∈ ((View.whole main_v5).slice (win0_7.rect t)).set ↔ _
  rw [View.set_slice_whole, Rect.mem_set_unit]
  exact Iff.rfl

/-- The 32 blocks tile the result: index `(b, q, o)` is in the block of the point with block index `(b, q / 4096)`. -/
theorem cover (i : S8x16384x128.Idx) : ∃ t : Fin cfg0.N, (cfg0.win 7).flush t = true ∧ i ∈ ((cfg0.win 7).blk t).view.set := by
  have hi0 : (i 0).val < 8 := (i 0).isLt
  have hi1 : (i 1).val < 16384 := (i 1).isLt
  have hi2 : (i 2).val < 128 := (i 2).isLt
  obtain ⟨t, ht⟩ := idx_onto ⟨(i 0).val, hi0⟩ ⟨(i 1).val / 4096, by omega⟩
  have q0 : win0_7.index t (0 : Fin 3) = (i 0).val := congrFun ht 0
  have q1 : win0_7.index t (1 : Fin 3) = (i 1).val / 4096 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 128 ≤ (i 2).val ∧ (i 2).val < win0_7.index t (2 : Fin 3) * 128 + 128; omega

/-- THE RESULT ARRAY after the run is the projection of the argument arrays. -/
theorem final (c : Dev nD) (hids : ∀ i, (m ((c : Thread nD τ).loc main_arg1) i).toNat < 1024) :
    (dats m 0 c).arrAt 7 cfg0.N
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed_eq m c t hids) cover

end Cert.RelProj.KernelBlocks

end
-- ==== Proof.LibGatherBatched.lean ====
/-
  Two general facts a value proof needs to read `jnp.take_along_axis` of a `[B, N, D]` table along its row axis,
  which lowers to a range test reduced by `and`, a batched `stablehlo.gather` and a select between them.

  THE BATCHED ROW GATHER AT AN INDEX (`gather_rows_apply`). Operand `[B, N, D]`, start indices `[B, R, 1]`, result
  `[B, R, D]`, with dimension numbers offset_dims `[2]`, collapsed_slice_dims `[1]`, operand_batching_dims `[0]`,
  start_indices_batching_dims `[0]`, start_index_map `[1]`, index_vector_dim 2 and slice sizes `[1, 1, D]`
  (`rowDims`): axis 0 is a batching axis of operand and indices, the start index names a row on the collapsed axis 1,
  and the whole of axis 2 is the slice. Result element `(b, r, o)` is the operand at `(b, n, o)`, where `n` is the
  start index `idx[b, r, 0]` read as a signed integer and clamped into `[0, N − 1]`. The three coordinates of the
  operand index are read separately (`rowDims_operand_0`, `_1`, `_2`): on each axis the operand coordinate is the
  clamped start plus the batch coordinate plus the offset coordinate, and for these dimension numbers exactly one of
  the three is present on each axis.

  A REDUCTION BY `and` OF AN ARRAY OF ONES (`reduce_andi_ones`): a `stablehlo.reduce` by `and`, started at 1, of an
  `i1` array that is 1 at every index is 1 at every index of the result, whatever the reduced axes; it is a left fold
  by `and` over a list of ones (`foldl_andi_ones`).

  A program's own dimension-number record with these lists is `rowDims B N D R wf` by unfolding, so
  `gather_rows_apply` applies to it directly (`refine (gather_rows_apply _ hN x idx b r o).trans ?_`).
-/
import Idealize.ShloMosaic.Lib.ValueIdx
import Idealize.ShloMosaic.PureOps.Reduce

noncomputable section

namespace Cert.Lib.GatherBatched

open Idealize.ShloMosaic Idealize.ShloMosaic.ValueIdx

/-! ## The batched row gather at an index

Operand `[B, N, D]`, start indices `[B, R, 1]`, result `[B, R, D]`: axis 0 is a batching axis of both, the start index
names a row on the collapsed axis 1, and the whole of axis 2 is the slice. Result element `(b, r, o)` is the operand at
`(b, n, o)`, `n` the start index `idx[b, r, 0]` read signed and clamped into `[0, N − 1]`. -/

section BatchedRows
variable {α : Type}

/-- Those dimension numbers, over literal extents. -/
abbrev rowDims (B N D R : Nat)
    (wf : GatherDims.WF ⟨3, ![B, N, D]⟩ ⟨3, ![B, R, 1]⟩ ⟨3, ![B, R, D]⟩ [2] [1] [0] [1] [0] 2 ![1, 1, D]) :
    GatherDims ⟨3, ![B, N, D]⟩ ⟨3, ![B, R, 1]⟩ ⟨3, ![B, R, D]⟩ where
  offsetDims := [2]
  collapsedSliceDims := [1]
  operandBatchingDims := [0]
  startIndicesBatchingDims := [0]
  startIndexMap := [1]
  indexVectorDim := 2
  sliceSizes := ![1, 1, D]
  wf := wf

variable {B N D R w : Nat}
  (wf : GatherDims.WF ⟨3, ![B, N, D]⟩ ⟨3, ![B, R, 1]⟩ ⟨3, ![B, R, D]⟩ [2] [1] [0] [1] [0] 2 ![1, 1, D])

/-- On the batching axis the operand coordinate is the result's batch coordinate. -/
theorem rowDims_operand_0 (idx : IVec ⟨3, ![B, R, 1]⟩ w) (b : Fin B) (r : Fin R) (o : Fin D) :
    ((rowDims B N D R wf).operandIdx (ix3 b r o) idx 0).val = b.val := by
  show (rowDims B N D R wf).start (ix3 b r o) idx 0 + (rowDims B N D R wf).batchCoord (ix3 b r o) 0
    + (rowDims B N D R wf).offCoord (ix3 b r o) 0 = b.val
  rw [GatherDims.start_batching _ _ _ _ (List.mem_singleton.mpr rfl),
    GatherDims.offCoord_eq_zero _ _ _ (fun h => ((GatherDims.mem_sKept _ _).mp h).2 (List.mem_singleton.mpr rfl))]
  unfold GatherDims.batchCoord
  rw [dif_pos (show (0 : Fin 3) ∈ (rowDims B N D R wf).operandBatchingDims from List.mem_singleton.mpr rfl)]
  simp only [Nat.zero_add, Nat.add_zero]
  rfl

/-- On the collapsed axis it is the start index, read signed and clamped to the last row. -/
theorem rowDims_operand_1 (idx : IVec ⟨3, ![B, R, 1]⟩ w) (b : Fin B) (r : Fin R) (o : Fin D) :
    ((rowDims B N D R wf).operandIdx (ix3 b r o) idx 1).val = min (idx (ix3 b r 0)).toInt.toNat (N - 1) := by
  show (rowDims B N D R wf).start (ix3 b r o) idx 1 + (rowDims B N D R wf).batchCoord (ix3 b r o) 1
    + (rowDims B N D R wf).offCoord (ix3 b r o) 1 = _
  rw [GatherDims.batchCoord_eq_zero _ _ _ (by show (1 : Fin 3) ∉ ([0] : List (Fin 3)); decide),
    GatherDims.offCoord_eq_zero _ _ _ (fun h => ((GatherDims.mem_sKept _ _).mp h).1 (List.mem_singleton.mpr rfl))]
  simp only [Nat.add_zero]
  unfold GatherDims.start
  rw [dif_pos (show (1 : Fin 3) ∈ (rowDims B N D R wf).startIndexMap from List.mem_singleton.mpr rfl)]
  have hsi : (rowDims B N D R wf).siIdx (ix3 b r o) ⟨List.idxOf (1 : Fin 3) (rowDims B N D R wf).startIndexMap,
      List.idxOf_lt_length_iff.2 (List.mem_singleton.mpr rfl)⟩ = ix3 b r 0 := by
    funext c; refine Fin.ext ?_
    match c with
    | ⟨0, _⟩ => rfl
    | ⟨1, _⟩ => rfl
    | ⟨2, _⟩ => rfl
  rw [hsi]
  rfl

/-- On the slice axis it is the result's offset coordinate. -/
theorem rowDims_operand_2 (idx : IVec ⟨3, ![B, R, 1]⟩ w) (b : Fin B) (r : Fin R) (o : Fin D) :
    ((rowDims B N D R wf).operandIdx (ix3 b r o) idx 2).val = o.val := by
  show (rowDims B N D R wf).start (ix3 b r o) idx 2 + (rowDims B N D R wf).batchCoord (ix3 b r o) 2
    + (rowDims B N D R wf).offCoord (ix3 b r o) 2 = o.val
  rw [GatherDims.batchCoord_eq_zero _ _ _ (by show (2 : Fin 3) ∉ ([0] : List (Fin 3)); decide)]
  unfold GatherDims.start GatherDims.offCoord
  rw [dif_neg (show ¬ (2 : Fin 3) ∈ (rowDims B N D R wf).startIndexMap by
      show (2 : Fin 3) ∉ ([1] : List (Fin 3)); decide),
    dif_pos (show (2 : Fin 3) ∈ (rowDims B N D R wf).sKept from (GatherDims.mem_sKept _ _).mpr
      ⟨by show (2 : Fin 3) ∉ ([1] : List (Fin 3)); decide, by show (2 : Fin 3) ∉ ([0] : List (Fin 3)); decide⟩)]
  simp only [Nat.zero_add, Nat.add_zero]
  rfl

/-- THE GATHER READ AT `(b, r, o)`. -/
theorem gather_rows_apply (hN : 0 < N) (x : (⟨3, ![B, N, D]⟩ : Shape).Idx → α) (idx : IVec ⟨3, ![B, R, 1]⟩ w)
    (b : Fin B) (r : Fin R) (o : Fin D) :
    Host.gather (rowDims B N D R wf) x idx (ix3 b r o)
      = x (ix3 b ⟨min (idx (ix3 b r 0)).toInt.toNat (N - 1), by omega⟩ o) := by
  unfold Host.gather
  congr 1
  funext a
  refine Fin.ext ?_
  match a with
  | ⟨0, _⟩ => exact rowDims_operand_0 wf idx b r o
  | ⟨1, _⟩ => exact rowDims_operand_1 wf idx b r o
  | ⟨2, _⟩ => exact rowDims_operand_2 wf idx b r o

end BatchedRows

/-! ## A reduction by `and` of an array of ones -/

section AllOnes

/-- A left fold by `and` that starts at 1 and meets only 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-- A `stablehlo.reduce` by `and`, from 1, of an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

end AllOnes

end Cert.Lib.GatherBatched

end
-- ==== Proof.RefValue.lean ====
/-
  The reference program computes the relation projection `Cert.RelProj.G`.

  The reference picks, for each relation `(b, r)`, the two span rows its ids name (a batched row gather per side,
  wrapped in the index normalisation and range test of `take_along_axis`), lays the two rows side by side, and runs
  the two dense layers with the rectifier between them. Under the hypothesis that every id is below 1024 (as an
  unsigned word; it is then non-negative as a signed one) the normalisation leaves the id as it is, the range test
  holds everywhere, so the fill value is never selected, and the gather's clamp is the identity: each gathered row is
  the span row the id names. The side-by-side vector times `W1` is the sum over 256 terms, which `sum_halves`
  splits into the two half sums of `G`.

  Two general facts are cited from LibGatherBatched: the batched row gather read at an index, and that a reduction
  by `and` of an array of ones is one. Sections here: words (what the comparisons, the select and the clamp do to a
  word below 1024); then the reference's stages one by one, from the ids to the result.
-/
import proofs.«417520_j53145925320930_3_alg».proof.Proof.RefRead
import proofs.«417520_j53145925320930_3_alg».proof.Proof.Spec
import proofs.«417520_j53145925320930_3_alg».proof.Proof.LibGatherBatched
import Idealize.ShloMosaic.Lib.ValueIdx
import Idealize.ShloMosaic.Lib.Pipeline.Value
import Idealize.ShloMosaic.PureOps.Ideal.Laws
import Idealize.ShloMosaic.Lib.StableHlo.Predicate

noncomputable section

namespace Cert.RelProj.RefValue

open Idealize.ShloMosaic Idealize.ShloMosaic.ValueIdx Cert.Lib.GatherBatched

/-! ## Words: an id below 1024 through the index normalisation, the range test and the clamp -/

section Words
open Idealize.ShloMosaic.StableHlo.Predicate

variable {w : BitVec 32}

/-- A word below 1024 is not negative as a signed word. -/
theorem slt_zero_of_lt (hw : w.toNat < 1024) : IntOp.cmpi .slt w 0#32 = 0#1 :=
  eq_zero_of_ne_one fun h => by
    have := (slt_iff_toNat (a := w) (b := 0#32) (by omega) (by decide)).mp h
    have h0 : (0#32 : BitVec 32).toNat = 0 := rfl
    omega

/-- So the normalisation "add 1024 to a negative index" leaves it as it is. -/
theorem wrap_of_lt (hw : w.toNat < 1024) :
    Scalar.select (IntOp.cmpi .slt w 0#32) (IntOp.addi w 1024#32) w = w := by
  rw [slt_zero_of_lt hw, select_zero]

/-- The range test `0 ≤ w ∧ w ≤ 1023` holds of it. -/
theorem inRange_of_lt (hw : w.toNat < 1024) :
    IntOp.andi (IntOp.cmpi .sge w 0#32) (IntOp.cmpi .sle w 1023#32) = 1#1 := by
  have h0 : (0#32 : BitVec 32).toNat = 0 := rfl
  have h1 : (1023#32 : BitVec 32).toNat = 1023 := rfl
  rw [(sge_iff_toNat (a := w) (b := 0#32) (by omega) (by decide)).mpr (by omega),
    (sle_iff_toNat (a := w) (b := 1023#32) (by omega) (by decide)).mpr (by omega)]
  rfl

/-- Read signed and clamped to the last row, it is its own value: the row it names. -/
theorem clamp_of_lt (hw : w.toNat < 1024) : min w.toInt.toNat 1023 = (row w).val := by
  rw [toInt_eq_toNat_of_lt (by omega), Int.toNat_natCast, row_of_lt hw]
  exact Nat.min_eq_left (by omega)

end Words

/-! ## The reference, stage by stage -/

section Stages
open Cert.ReferenceIdeal Cert.ReferenceIdeal.Gen Cert.ReferenceIdeal.ReadP

variable (x0 : FVec Ideal S8x1024x128 .f32) (x1 : IVec S8x16384x2 32) (x2 : FVec Ideal S256x384 .f32)
  (x3 : FVec Ideal S384 .f32) (x4 : FVec Ideal S384x128 .f32) (x5 : FVec Ideal S128 .f32)

/-! ### Side 0 (the head id) -/

/-- The slice `ids[:, :, 0:1]` at `(b, r, 0)` is the head id. -/
theorem slice0_apply (b : Fin 8) (r : Fin 16384) :
    val_main_v0 (F := Ideal) x1 (ix3 b r 0) = x1 (ix3 b r 0) := by
  rw [val_main_v0_apply]
  exact congrArg x1 (funext fun a => Fin.ext (by match a with | ⟨0, _⟩ => rfl | ⟨1, _⟩ => rfl | ⟨2, _⟩ => rfl))

/-- The normalised index is the head id itself: the id is not negative, so 1024 is not added. -/
theorem index0_apply (hids : ∀ i, (x1 i).toNat < 1024) (b : Fin 8) (r : Fin 16384) :
    val_main_call0_v4 (F := Ideal) x1 (ix3 b r 0) = x1 (ix3 b r 0) := by
  rw [val_main_call0_v4_apply, val_main_call0_v1_apply, val_main_call0_v3_apply, val_main_call0_v0_apply,
    val_main_call0_c_apply, val_main_call0_v2_apply, val_main_call0_c_0_apply, slice0_apply]
  exact wrap_of_lt (hids _)

/-- The range test holds at every index … -/
theorem mask0_apply (hids : ∀ i, (x1 i).toNat < 1024) (i : S8x16384x1.Idx) :
    val_main_call0_v10 (F := Ideal) x1 i = 1#1 := by
  obtain ⟨b, r, z, rfl⟩ : ∃ (b : Fin 8) (r : Fin 16384) (z : Fin 1), i = ix3 b r z := ⟨i 0, i 1, i 2, eq_ix3 i⟩
  obtain rfl : z = 0 := Subsingleton.elim _ _
  rw [val_main_call0_v10_apply, val_main_call0_v6_apply, val_main_call0_v9_apply, val_main_call0_v5_apply,
    val_main_call0_c_2_apply, val_main_call0_v8_apply, val_main_call0_v7_apply, val_main_call0_c_1_apply,
    index0_apply x1 hids]
  exact inRange_of_lt (hids _)

/-- … so its reduction by `and` over the unit axis is 1 at every relation … -/
theorem all0_apply (hids : ∀ i, (x1 i).toNat < 1024) (j : S8x16384.Idx) :
    val_main_call0_v11 (F := Ideal) x1 j = 1#1 := by
  unfold val_main_call0_v11
  exact reduce_andi_ones _ _ _ _ (mask0_apply x1 hids) (fun _ => rfl) j

/-- … and the select's condition, its broadcast along the row, is 1 at every index. -/
theorem ok0_apply (hids : ∀ i, (x1 i).toNat < 1024) (i : S8x16384x128.Idx) :
    val_main_call0_v13 (F := Ideal) x1 i = 1#1 := by
  rw [val_main_call0_v13_apply]
  exact all0_apply x1 hids _

/-- The gathered row is the span row the head id names: the clamp does nothing to an id in range. -/
theorem gather0_apply (hids : ∀ i, (x1 i).toNat < 1024) (b : Fin 8) (r : Fin 16384) (d : Fin 128) :
    val_main_call0_v12 (F := Ideal) x0 x1 (ix3 b r d) = picked x0 x1 b r 0 d := by
  have hi : val_main_call0_v4 (F := Ideal) x1 (ix3 b r 0) = x1 (ix3 b r 0) := index0_apply x1 hids b r
  unfold val_main_call0_v12 picked
  generalize val_main_call0_v4 (F := Ideal) x1 = idx at hi ⊢
  refine (gather_rows_apply (N := 1024) _ (by decide) x0 idx b r d).trans ?_
  refine congrArg x0 (congrArg (fun n => ix3 b n d) (Fin.ext ?_))
  show min (idx (ix3 b r 0)).toInt.toNat 1023 = (row (x1 (ix3 b r 0))).val
  rw [hi]
  exact clamp_of_lt (hids _)

/-- Side 0 of the pair, after the select on the range test: the picked row, the fill value never chosen. -/
theorem side0_apply (hids : ∀ i, (x1 i).toNat < 1024) (b : Fin 8) (r : Fin 16384) (d : Fin 128) :
    val_main_v1 (F := Ideal) x0 x1 (ix3 b r d) = picked x0 x1 b r 0 d := by
  rw [val_main_v1_apply, ok0_apply x1 hids, select_one, gather0_apply x0 x1 hids]

/-! ### Side 1 (the tail id) -/

/-- The slice `ids[:, :, 1:2]` at `(b, r, 0)` is the tail id. -/
theorem slice1_apply (b : Fin 8) (r : Fin 16384) :
    val_main_v2 (F := Ideal) x1 (ix3 b r 0) = x1 (ix3 b r 1) := by
  rw [val_main_v2_apply]
  exact congrArg x1 (funext fun a => Fin.ext (by match a with | ⟨0, _⟩ => rfl | ⟨1, _⟩ => rfl | ⟨2, _⟩ => rfl))

/-- The normalised index is the tail id itself: the id is not negative, so 1024 is not added. -/
theorem index1_apply (hids : ∀ i, (x1 i).toNat < 1024) (b : Fin 8) (r : Fin 16384) :
    val_main_call1_v4 (F := Ideal) x1 (ix3 b r 0) = x1 (ix3 b r 1) := by
  rw [val_main_call1_v4_apply, val_main_call1_v1_apply, val_main_call1_v3_apply, val_main_call1_v0_apply,
    val_main_call1_c_apply, val_main_call1_v2_apply, val_main_call1_c_0_apply, slice1_apply]
  exact wrap_of_lt (hids _)

/-- The range test holds at every index … -/
theorem mask1_apply (hids : ∀ i, (x1 i).toNat < 1024) (i : S8x16384x1.Idx) :
    val_main_call1_v10 (F := Ideal) x1 i = 1#1 := by
  obtain ⟨b, r, z, rfl⟩ : ∃ (b : Fin 8) (r : Fin 16384) (z : Fin 1), i = ix3 b r z := ⟨i 0, i 1, i 2, eq_ix3 i⟩
  obtain rfl : z = 0 := Subsingleton.elim _ _
  rw [val_main_call1_v10_apply, val_main_call1_v6_apply, val_main_call1_v9_apply, val_main_call1_v5_apply,
    val_main_call1_c_2_apply, val_main_call1_v8_apply, val_main_call1_v7_apply, val_main_call1_c_1_apply,
    index1_apply x1 hids]
  exact inRange_of_lt (hids _)

/-- … so its reduction by `and` over the unit axis is 1 at every relation … -/
theorem all1_apply (hids : ∀ i, (x1 i).toNat < 1024) (j : S8x16384.Idx) :
    val_main_call1_v11 (F := Ideal) x1 j = 1#1 := by
  unfold val_main_call1_v11
  exact reduce_andi_ones _ _ _ _ (mask1_apply x1 hids) (fun _ => rfl) j

/-- … and the select's condition, its broadcast along the row, is 1 at every index. -/
theorem ok1_apply (hids : ∀ i, (x1 i).toNat < 1024) (i : S8x16384x128.Idx) :
    val_main_call1_v13 (F := Ideal) x1 i = 1#1 := by
  rw [val_main_call1_v13_apply]
  exact all1_apply x1 hids _

/-- The gathered row is the span row the tail id names: the clamp does nothing to an id in range. -/
theorem gather1_apply (hids : ∀ i, (x1 i).toNat < 1024) (b : Fin 8) (r : Fin 16384) (d : Fin 128) :
    val_main_call1_v12 (F := Ideal) x0 x1 (ix3 b r d) = picked x0 x1 b r 1 d := by
  have hi : val_main_call1_v4 (F := Ideal) x1 (ix3 b r 0) = x1 (ix3 b r 1) := index1_apply x1 hids b r
  unfold val_main_call1_v12 picked
  generalize val_main_call1_v4 (F := Ideal) x1 = idx at hi ⊢
  refine (gather_rows_apply (N := 1024) _ (by decide) x0 idx b r d).trans ?_
  refine congrArg x0 (congrArg (fun n => ix3 b n d) (Fin.ext ?_))
  show min (idx (ix3 b r 0)).toInt.toNat 1023 = (row (x1 (ix3 b r 1))).val
  rw [hi]
  exact clamp_of_lt (hids _)

/-- Side 1 of the pair, after the select on the range test: the picked row, the fill value never chosen. -/
theorem side1_apply (hids : ∀ i, (x1 i).toNat < 1024) (b : Fin 8) (r : Fin 16384) (d : Fin 128) :
    val_main_v3 (F := Ideal) x0 x1 (ix3 b r d) = picked x0 x1 b r 1 d := by
  rw [val_main_v3_apply, ok1_apply x1 hids, select_one, gather1_apply x0 x1 hids]

/-! ### The two rows side by side -/

/-- The concatenation along the last axis, at a position in its first half, is side 0 there. -/
theorem cat_upper (b : Fin 8) (r : Fin 16384) (d : Fin 128) :
    val_main_v4 (F := Ideal) x0 x1 (ix3 b r (upper d)) = val_main_v1 (F := Ideal) x0 x1 (ix3 b r d) := by
  unfold val_main_v4
  generalize val_main_v1 (F := Ideal) x0 x1 = y1
  generalize val_main_v3 (F := Ideal) x0 x1 = y3
  exact concatenate_pair_apply_left (2 : Fin 3) y1 y3 _ (ix3 b r (upper d)) rfl (ix3 b r d)
    (fun c => match c with | ⟨0, _⟩ => rfl | ⟨1, _⟩ => rfl | ⟨2, _⟩ => rfl)

/-- At a position in its second half it is side 1, 128 places earlier. -/
theorem cat_lower (b : Fin 8) (r : Fin 16384) (d : Fin 128) :
    val_main_v4 (F := Ideal) x0 x1 (ix3 b r (lower d)) = val_main_v3 (F := Ideal) x0 x1 (ix3 b r d) := by
  unfold val_main_v4
  generalize val_main_v1 (F := Ideal) x0 x1 = y1
  generalize val_main_v3 (F := Ideal) x0 x1 = y3
  exact concatenate_pair_apply_right (2 : Fin 3) y1 y3 _ (ix3 b r (lower d)) rfl rfl (ix3 b r d)
    (fun c => match c with | ⟨0, _⟩ => fun _ => rfl | ⟨1, _⟩ => fun _ => rfl | ⟨2, _⟩ => fun h => absurd rfl h)
    (by show d.val + 128 = 128 + d.val; omega)

/-! ### The two layers -/

/-- The first layer before the rectifier: the sum over the 256 side-by-side entries, split into its halves. -/
theorem hidden_apply (hids : ∀ i, (x1 i).toNat < 1024) (b : Fin 8) (r : Fin 16384) (f : Fin 384) :
    val_main_v8 (F := Ideal) x0 x1 x2 x3 (ix3 b r f) = hidden x0 x1 x2 x3 b r f := by
  have hl : ∀ k : Fin 256, lidx_main_v5 (ix3 b r f) k = ix3 b r k := fun k => funext fun a => Fin.ext (by
    match a with | ⟨0, _⟩ => rfl | ⟨1, _⟩ => rfl | ⟨2, _⟩ => rfl)
  have hr : ∀ k : Fin 256, ridx_main_v5 (ix3 b r f) k = ix2 k f := fun k => funext fun a => Fin.ext (by
    match a with | ⟨0, _⟩ => rfl | ⟨1, _⟩ => rfl)
  have hb : idx_main_v6 (idx_main_v7 (ix3 b r f)) = ix1 f := funext fun a => Fin.ext (by
    match a with | ⟨0, _⟩ => rfl)
  rw [val_main_v8_apply, val_main_v5_apply, val_main_v7_apply, val_main_v6_apply, hb, Ideal.addf_def]
  simp only [hl, hr]
  rw [sum_halves]
  simp only [cat_upper, cat_lower, side0_apply x0 x1 hids, side1_apply x0 x1 hids]
  rfl

/-- The rectifier: the maximum with the zero constant. -/
theorem relu_apply (hids : ∀ i, (x1 i).toNat < 1024) (b : Fin 8) (r : Fin 16384) (f : Fin 384) :
    val_main_v9 (F := Ideal) x0 x1 x2 x3 (ix3 b r f) = max (hidden x0 x1 x2 x3 b r f) 0 := by
  rw [val_main_v9_apply, val_main_call2_v0_apply, val_main_call2_cst_apply, hidden_apply x0 x1 x2 x3 hids,
    Ideal.maximumf_def, Ideal.ofBits_def, Ideal.ofBits_zero_f32]

/-- THE REFERENCE IS THE PROJECTION. -/
theorem ref_eq_G (x0 : FVec Ideal Cert.ReferenceIdeal.S8x1024x128 .f32) (x1 : IVec Cert.ReferenceIdeal.S8x16384x2 32)
    (x2 : FVec Ideal Cert.ReferenceIdeal.S256x384 .f32) (x3 : FVec Ideal Cert.ReferenceIdeal.S384 .f32)
    (x4 : FVec Ideal Cert.ReferenceIdeal.S384x128 .f32) (x5 : FVec Ideal Cert.ReferenceIdeal.S128 .f32)
    (hids : ∀ i, (x1 i).toNat < 1024) :
    Cert.ReferenceIdeal.ReadP.val_main_v13 (F := Ideal) x0 x1 x2 x3 x4 x5 = Cert.RelProj.G x0 x1 x2 x3 x4 x5 := by
  funext i
  obtain ⟨b, r, o, rfl⟩ : ∃ (b : Fin 8) (r : Fin 16384) (o : Fin 128), i = ix3 b r o := ⟨i 0, i 1, i 2, eq_ix3 i⟩
  have hl : ∀ k : Fin 384, lidx_main_v10 (ix3 b r o) k = ix3 b r k := fun k => funext fun a => Fin.ext (by
    match a with | ⟨0, _⟩ => rfl | ⟨1, _⟩ => rfl | ⟨2, _⟩ => rfl)
  have hr : ∀ k : Fin 384, ridx_main_v10 (ix3 b r o) k = ix2 k o := fun k => funext fun a => Fin.ext (by
    match a with | ⟨0, _⟩ => rfl | ⟨1, _⟩ => rfl)
  have hb : idx_main_v11 (idx_main_v12 (ix3 b r o)) = ix1 o := funext fun a => Fin.ext (by
    match a with | ⟨0, _⟩ => rfl)
  rw [val_main_v13_apply, val_main_v10_apply, val_main_v12_apply, val_main_v11_apply, hb, Ideal.addf_def]
  simp only [hl, hr, relu_apply x0 x1 x2 x3 hids]
  rfl

end Stages

end Cert.RelProj.RefValue

end
-- ==== Proof.lean ====
/-
  A relation projection: for each of 8 batches and 16384 relations, the two ids of the relation each pick a row
  of the batch's span table (1024 rows of 128 numbers); the two rows side by side go through a two-layer
  perceptron, `relu (cat · W1 + b1) · W2 + b2`.

  The kernel picks a row by multiplying the table with a selector row (one at the id's column, zero elsewhere), and
  computes the first layer as `head · W1[0:128] + tail · W1[128:256]`; the reference gathers the rows, joins them and
  multiplies by the whole of `W1`. Over the extended reals the two are one function `Cert.RelProj.G` of the six
  argument arrays (Proof/Spec.lean) wherever every id is the number of a row, `0 ≤ id < 1024`, which the
  precondition states (Proof/PreIds.lean): a selector row times the table is the table's row (zero times anything is
  zero), and a sum over 256 terms is the sum of its two halves. Neither law needs the float inputs to be finite.

  * The kernel's side: the body's arithmetic at an entry of its output block (Proof/KernelPay.lean over
    Proof/LibPlainDot.lean), then from the 32 blocks to the whole array (Proof/KernelBlocks.lean).
  * The reference's side: its run (Proof/RefRun.lean), one operation at a time (Proof/RefRead.lean), and that the
    last stage is `G` (Proof/RefValue.lean over Proof/LibGatherBatched.lean).
  * The three frames: the two kernels' are their launch-and-body runs; the reference's is its run with the result
    dropped. The idealized kernel is the kernel's own text read at the ideal values: nothing was rewritten, so the
    idealization claim is empty.
-/
import proofs.«417520_j53145925320930_3_alg».proof.Defs
import proofs.«417520_j53145925320930_3_alg».proof.Proof.Gen.Kernel
import proofs.«417520_j53145925320930_3_alg».proof.Proof.Gen.Kernel.Skeleton
import proofs.«417520_j53145925320930_3_alg».proof.Proof.Gen.Kernel.Launch
import proofs.«417520_j53145925320930_3_alg».proof.Proof.Gen.Kernel.Points
import proofs.«417520_j53145925320930_3_alg».proof.Proof.Gen.Kernel.Frame
import proofs.«417520_j53145925320930_3_alg».proof.Proof.Gen.KernelIdeal
import proofs.«417520_j53145925320930_3_alg».proof.Proof.Gen.KernelIdeal.Skeleton
import proofs.«417520_j53145925320930_3_alg».proof.Proof.Gen.KernelIdeal.Launch
import proofs.«417520_j53145925320930_3_alg».proof.Proof.Gen.KernelIdeal.Points
import proofs.«417520_j53145925320930_3_alg».proof.Proof.Gen.KernelIdeal.Frame
import proofs.«417520_j53145925320930_3_alg».proof.Proof.Gen.ReferenceIdeal
import proofs.«417520_j53145925320930_3_alg».proof.Proof.Gen.Pre_finite_inputs
import proofs.«417520_j53145925320930_3_alg».proof.Proof.Gen.KernelIdeal.Value
import proofs.«417520_j53145925320930_3_alg».proof.Proof.RefRun
import proofs.«417520_j53145925320930_3_alg».proof.Proof.RefRead
import proofs.«417520_j53145925320930_3_alg».proof.Proof.Spec
import proofs.«417520_j53145925320930_3_alg».proof.Proof.PreIds
import proofs.«417520_j53145925320930_3_alg».proof.Proof.KernelBlocks
import proofs.«417520_j53145925320930_3_alg».proof.Proof.RefValue
import Idealize.ShloMosaic.Adequacy
import Idealize.ShloMosaic.Init

noncomputable section

namespace Cert.Proof

open Idealize.ShloMosaic Idealize.SL.Sem Idealize.ShloMosaic.TcCoe

/-- The kernel as printed runs, faults nowhere and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the projection `G` of the argument arrays in their result: the kernel's blocks tile it, the
    reference's last stage is it; the ids are in range by the precondition. -/
theorem algebraic : Cert.algebraic_KernelIdeal_ReferenceIdeal := by
  intro m ρ m' ρ' hpre hagree
  have hids : ∀ (c : Dev Cert.KernelIdeal.nD) i,
      (m ((c.tc : Thread Cert.KernelIdeal.nD Cert.KernelIdeal.τ).loc Cert.KernelIdeal.main_arg1) i).toNat < 1024 :=
    fun c i => Cert.RelProj.PreIds.ids_lt _ _ _ _ _ _ (hpre c) i
  refine ⟨fun c => Cert.RelProj.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.RelProj.KernelBlocks.final m c (hids c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    have hids' : ∀ i, (m' ((c.tc : Thread Cert.ReferenceIdeal.nD Cert.ReferenceIdeal.τ).loc Cert.ReferenceIdeal.main_arg1) i).toNat < 1024 := by
      intro i; rw [(hagree c).2.1]; exact hids c i
    rw [Cert.ReferenceIdeal.ReadP.val_main_v13_eq, Cert.RelProj.RefValue.ref_eq_G _ _ _ _ _ _ hids',
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
